-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x32 : Shape := ⟨2, ![11008, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S4x2048x4096 .f32) (main_arg1 : IVec S11008x2048 32) (main_arg2 : FVec F S11008x32 .f32) (main_arg3 : FVec F S11008x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008x32 : Shape := ⟨2, ![11008, 32]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S8192x11008 : Shape := ⟨2, ![8192, 11008]⟩
abbrev S1024x2048 : Shape := ⟨2, ![1024, 2048]⟩
abbrev S256x2048 : Shape := ⟨2, ![256, 2048]⟩
abbrev S256x32 : Shape := ⟨2, ![256, 32]⟩
abbrev S1024x256 : Shape := ⟨2, ![1024, 256]⟩
abbrev S256x32x1 : Shape := ⟨3, ![256, 32, 1]⟩
abbrev S256x32x64 : Shape := ⟨3, ![256, 32, 64]⟩
abbrev S4x2048x11008 : Shape := ⟨3, ![4, 2048, 11008]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S8192x2048x2, .f32⟩
  | .hbm, ⟨5, _⟩ => ⟨S8192x2048x2, .bf16⟩
  | .hbm, ⟨6, _⟩ => ⟨S8192x2048x1, .bf16⟩
  | .hbm, ⟨7, _⟩ => ⟨S8192x2048, .bf16⟩
  | .hbm, ⟨8, _⟩ => ⟨S8192x2048x1, .bf16⟩
  | .hbm, ⟨9, _⟩ => ⟨S8192x2048, .bf16⟩
  | .hbm, ⟨10, _⟩ => ⟨S8192x11008, .f32⟩
  | .hbm, ⟨11, _⟩ => ⟨S4x2048x11008, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .i32⟩
  | .local _ .vmem, ⟨5, _⟩ => ⟨S256x2048, .i32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S1024x256, .f32⟩
  | .local _ .vmem, ⟨11, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x2048x2 : S4x2048x4096.ShapeCasts S8192x2048x2
  bitsLt_bf16_f32 : FTy.bits .bf16 < FTy.bits .f32
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  inb_S256x2048_S256x2048_0_0 : ∀ a, (![0, 0] : Fin 2 → Nat) a + S256x2048.size a ≤ S256x2048.size a
  h_S256x2048 : 0 < S256x2048.numel
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  shapeCasts_S256x32x1_S256x32x1 : S256x32x1.ShapeCasts S256x32x1
  broadcasts_S256x32x1_S256x32x64 : S256x32x1.Broadcasts S256x32x64
  shapeCasts_S256x32x64_S256x2048 : S256x32x64.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11008x2048.size a
  hwx0_2 : ∀ i : grid0.Coords, EltTy.bits .i32 = 32 ∨ (Rect.block (s := S11008x2048) S256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S11008x32.size a
  hwx0_4 : ∀ i : grid0.Coords, EltTy.bits .f32 = 32 ∨ (Rect.block (s := S11008x32) S256x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x32 : Shape := ⟨2, ![11008, 32]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S4x2048x11008 : Shape := ⟨3, ![4, 2048, 11008]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S11008x2048, .f32⟩
  | .hbm, ⟨8, _⟩ => ⟨S_, .i32⟩
  | .hbm, ⟨9, _⟩ => ⟨S11008x2048, .i32⟩
  | .hbm, ⟨10, _⟩ => ⟨S11008x2048, .i32⟩
  | .hbm, ⟨11, _⟩ => ⟨S11008x2048, .f32⟩
  | .hbm, ⟨12, _⟩ => ⟨S11008x2048x1, .f32⟩
  | .hbm, ⟨13, _⟩ => ⟨S11008x2048x1, .f32⟩
  | .hbm, ⟨14, _⟩ => ⟨S11008x2048x2, .f32⟩
  | .hbm, ⟨15, _⟩ => ⟨S11008x4096, .f32⟩
  | .hbm, ⟨16, _⟩ => ⟨S11008x32x128, .f32⟩
  | .hbm, ⟨17, _⟩ => ⟨S11008x4096, .f32⟩
  | .hbm, ⟨18, _⟩ => ⟨S11008x32x128, .f32⟩
  | .hbm, ⟨19, _⟩ => ⟨S11008x4096, .f32⟩
  | .hbm, ⟨20, _⟩ => ⟨S11008x4096, .f32⟩
  | .hbm, ⟨21, _⟩ => ⟨S11008x4096, .f32⟩
  | .hbm, ⟨22, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S11008x32_S11008x32x128_0_1 : S11008x32.BroadcastsInDim S11008x32x128 (![0, 1] : Fin 2 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The dequantized dense layer as ONE function of the argument arrays, over the extended reals.

  A packed word `ws[o, j]` carries two 4-bit weights: its low nibble `ws[o, j] & 15` is the weight of feature `2j`, the
  rest `ws[o, j] >> 4` the weight of feature `2j + 1`. Features come in groups of 128, i.e. 64 packed columns, and group
  `g = j / 64` of output row `o` has one scale `sc[o, g]` and one bias `bi[o, g]`; both features of a packed column lie in
  the same group. The dequantized weight is `q · sc + bi`, and the layer's output is

      out[b, s, o] = Σ_j x[b, s, 2j] · wLow[o, j]  +  Σ_j x[b, s, 2j+1] · wHigh[o, j].

  The one algebraic law that joins the two programs is the split of a sum over 4096 features into its even and its odd
  terms, which holds in every commutative additive monoid (no finiteness is needed: only + is regrouped).
-/
import Idealize.ShloMosaic.PureOps.Ideal
import Idealize.ShloMosaic.Lib.ValueIdx

noncomputable section

open scoped BigOperators

namespace Cert.QDense

open Idealize.ShloMosaic Idealize.ShloMosaic.ValueIdx

/-- The quantization group of packed column `j`: 64 packed columns (128 features) share one scale and one bias. -/
def grp (j : Fin 2048) : Fin 32 := ⟨j.val / 64, by have := j.isLt; omega⟩

/-- The even feature `2j` of packed column `j`. -/
def even (j : Fin 2048) : Fin 4096 := ⟨2 * j.val, by have := j.isLt; omega⟩
/-- The odd feature `2j + 1` of packed column `j`. -/
def odd (j : Fin 2048) : Fin 4096 := ⟨2 * j.val + 1, by have := j.isLt; omega⟩

/-- The dequantized weight of output row `o` at the even feature `2j`: the low nibble, scaled and shifted by its group's
    scale and bias. -/
def wLow (ws : IVec ⟨2, ![11008, 2048]⟩ 32) (sc bi : FVec Ideal ⟨2, ![11008, 32]⟩ .f32) (o : Fin 11008) (j : Fin 2048) : EReal :=
  FloatOps.sitofp (F := Ideal) .f32 (IntOp.andi (ws (ix2 o j)) 15#32) * sc (ix2 o (grp j)) + bi (ix2 o (grp j))

/-- The dequantized weight of output row `o` at the odd feature `2j + 1`: the word shifted right by four bits, scaled and
    shifted by the same group's scale and bias. -/
def wHigh (ws : IVec ⟨2, ![11008, 2048]⟩ 32) (sc bi : FVec Ideal ⟨2, ![11008, 32]⟩ .f32) (o : Fin 11008) (j : Fin 2048) : EReal :=
  FloatOps.sitofp (F := Ideal) .f32 (IntOp.shrsi .vector (ws (ix2 o j)) 4#32) * sc (ix2 o (grp j)) + bi (ix2 o (grp j))

/-- The layer's output: row `(b, s)` of `x` against dequantized row `o`, the even features against the low nibbles and
    the odd features against the high ones. -/
def outAt (x : FVec Ideal ⟨3, ![4, 2048, 4096]⟩ .f32) (ws : IVec ⟨2, ![11008, 2048]⟩ 32) (sc bi : FVec Ideal ⟨2, ![11008, 32]⟩ .f32)
    (b : Fin 4) (s : Fin 2048) (o : Fin 11008) : EReal :=
  (∑ j : Fin 2048, x (ix3 b s (even j)) * wLow ws sc bi o j) + ∑ j : Fin 2048, x (ix3 b s (odd j)) * wHigh ws sc bi o j

/-- The same as an array over `[4, 2048, 11008]`. -/
def out (x : FVec Ideal ⟨3, ![4, 2048, 4096]⟩ .f32) (ws : IVec ⟨2, ![11008, 2048]⟩ 32) (sc bi : FVec Ideal ⟨2, ![11008, 32]⟩ .f32) :
    FVec Ideal ⟨3, ![4, 2048, 11008]⟩ .f32 := fun i => outAt x ws sc bi (i 0) (i 1) (i 2)

/-- A sum over `2n` consecutive terms is the sum of its even terms plus the sum of its odd terms. -/
theorem sum_parity {M : Type*} [AddCommMonoid M] (n : Nat) (f : Fin (n * 2) → M) :
    ∑ k, f k = (∑ j : Fin n, f ⟨2 * j.val, by have := j.isLt; omega⟩) + ∑ j : Fin n, f ⟨2 * j.val + 1, by have := j.isLt; omega⟩ := by
  rw [← Equiv.sum_comp (finProdFinEquiv (m := n) (n := 2)) f, Fintype.sum_prod_type, ← Finset.sum_add_distrib]
  refine Finset.sum_congr rfl fun j _ => ?_
  rw [Fin.sum_univ_two]
  congr 1 <;> exact congrArg f (Fin.ext (by simp [finProdFinEquiv] <;> omega))

/-- The split at the layer's 4096 features. -/
theorem sum_even_odd {M : Type*} [AddCommMonoid M] (f : Fin 4096 → M) :
    ∑ k, f k = (∑ j : Fin 2048, f (even j)) + ∑ j : Fin 2048, f (odd j) :=
  sum_parity 2048 f

end Cert.QDense

end
-- ==== Proof.Payload.lean ====
/-
  The kernel body's arithmetic, read at one entry of the output block.

  At a grid point the body holds a block of 1024 rows of the even features `xe` and of the odd features `xo`
  (each 1024 × 2048), 256 rows of packed words `ws` (256 × 2048) and those rows' scales and biases (256 × 32). It
  expands scale and bias along the packed columns (`[256, 32] → [256, 32, 1] → [256, 32, 64] → [256, 2048]`: packed
  column `j` reads group `j / 64`), dequantizes the low nibbles and the shifted words, and adds two products into zero
  accumulators, each contracting the 2048 packed columns. Entry `(p, q)` of the block is therefore

      Σ_j xe[p, j] · (low[q, j] · sc[q, j/64] + bi[q, j/64])  +  Σ_j xo[p, j] · (high[q, j] · sc[q, j/64] + bi[q, j/64]),

  the narrowing of the dequantized weights to bf16 being the identity on the extended reals.
-/
import proofs.«414690_j29867202576384_1_alg».proof.Proof.Gen.KernelIdeal.Skeleton
import proofs.«414690_j29867202576384_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.QDense

/-! ## The contraction's operand indices -/

theorem lhs_ax0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_ax1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_ax0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_ax1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- A block of rows against a block of weight rows, into a zero accumulator: entry `(p, q)` is the sum over the 2048
    packed columns of row `p` times weight row `q` (both operands are contracted along their second axis). -/
theorem rows_times_rows (a : FVec Ideal S1024x2048 .bf16) (w : FVec Ideal S256x2048 .bf16) (p : Fin 1024) (q : Fin 256) :
    matmul dot_S1024x2048_S256x2048_S1024x256_1_1_0_0_n_n none a w (constant S1024x256 .f32 0x00000000#32) (ix2 p q)
      = ∑ j : Fin 2048, a (ix2 p j) * w (ix2 q j) := by
  show FloatOps.matmul dot_S1024x2048_S256x2048_S1024x256_1_1_0_0_n_n none a w (constant S1024x256 .f32 0x00000000#32) (ix2 p q) = _
  rw [Ideal.matmul_constant_zero_apply, ← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 p q) ((contrEquiv1 dot_S1024x2048_S256x2048_S1024x256_1_1_0_0_n_n 2048 rfl rfl).symm k) = ix2 p k := funext fun a => Fin.ext (by
    match a with
    | ⟨0, _⟩ => exact lhs_ax0 _ _
    | ⟨1, _⟩ => exact (lhs_ax1 _ _).trans hk)
  have er : dot_S1024x2048_S256x2048_S1024x256_1_1_0_0_n_n.rhsIdx (ix2 p q) ((contrEquiv1 dot_S1024x2048_S256x2048_S1024x256_1_1_0_0_n_n 2048 rfl rfl).symm k) = ix2 q k := funext fun a => Fin.ext (by
    match a with
    | ⟨0, _⟩ => exact rhs_ax0 _ _
    | ⟨1, _⟩ => exact (rhs_ax1 _ _).trans hk)
  rw [el, er]

/-! ## Scale and bias expanded along the packed columns -/

/-- A per-group array expanded to the packed columns (`[256, 32] → [256, 32, 1] → [256, 32, 64] → [256, 2048]`):
    packed column `j` reads group `j / 64`. -/
theorem expand_apply {α : Type} (v : S256x32.Idx → α) (q : Fin 256) (j : Fin 2048) :
    shapeCast S256x2048 (broadcastTo S256x32x64 (shapeCast S256x32x1 (shapeCast S256x32x1 v shapeCasts_S256x32_S256x32x1) shapeCasts_S256x32x1_S256x32x1)
      broadcasts_S256x32x1_S256x32x64) shapeCasts_S256x32x64_S256x2048 (ix2 q j) = v (ix2 q (grp j)) := by
  have hj := j.isLt
  have hq := q.isLt
  rw [shapeCast_apply _ shapeCasts_S256x32x64_S256x2048 (ix2 q j) (ix3 q (grp j) (⟨j.val % 64, by omega⟩ : Fin 64)) (by
    rewrite [Shape.rowMajor_val_three, Shape.rowMajor_val_two]
    show (q.val * 32 + j.val / 64) * 64 + j.val % 64 = q.val * 2048 + j.val; omega)]
  rw [broadcastTo_apply _ broadcasts_S256x32x1_S256x32x64 _ (ix3 q (grp j) (0 : Fin 1)) (fun a => by
    match a with
    | ⟨0, _⟩ => show q.val = if (256 : Nat) = 1 then 0 else q.val; rw [if_neg (by decide)]
    | ⟨1, _⟩ => show j.val / 64 = if (32 : Nat) = 1 then 0 else j.val / 64; rw [if_neg (by decide)]
    | ⟨2, _⟩ => show 0 = if (1 : Nat) = 1 then 0 else j.val % 64; rw [if_pos rfl])]
  rw [shapeCast_self]
  rw [shapeCast_apply _ shapeCasts_S256x32_S256x32x1 (ix3 q (grp j) (0 : Fin 1)) (ix2 q (grp j)) (by
    rewrite [Shape.rowMajor_val_two, Shape.rowMajor_val_three]
    show q.val * 32 + j.val / 64 = (q.val * 32 + j.val / 64) * 1 + 0; omega)]

/-! ## The payload at an entry -/

/-- Entry `(p, q)` of what the body stores: the even features of row `p` against the dequantized low nibbles of weight row
    `q`, plus the odd features against the dequantized high parts. -/
theorem payload_apply (v0 : Vec Ideal S256x2048 .i32) (v7 v8 : Vec Ideal S256x32 .f32) (v23 v26 : Vec Ideal S1024x2048 .bf16)
    (p : Fin 1024) (q : Fin 256) :
    k0_pay1 v0 v7 v8 v23 v26 (ix2 p q)
      = (∑ j : Fin 2048, v23 (ix2 p j) * (FloatOps.sitofp (F := Ideal) .f32 (IntOp.andi (v0 (ix2 q j)) 15#32) * v7 (ix2 q (grp j)) + v8 (ix2 q (grp j))))
        + ∑ j : Fin 2048, v26 (ix2 p j) * (FloatOps.sitofp (F := Ideal) .f32 (IntOp.shrsi .vector (v0 (ix2 q j)) 4#32) * v7 (ix2 q (grp j)) + v8 (ix2 q (grp j))) := by
  unfold k0_pay1
  rw [addf_apply, rows_times_rows, rows_times_rows]
  congr 1 <;> refine Finset.sum_congr rfl fun j _ => ?_
  · rw [shapeCast_self, truncf_apply, addf_apply, mulf_apply, expand_apply, expand_apply]
    rfl
  · rw [shapeCast_self, truncf_apply, addf_apply, mulf_apply, expand_apply, expand_apply]
    rfl

end Cert.KernelIdeal.BodyValue

end
-- ==== Proof.Blocks.lean ====
/-
  From the blocks to the whole array.

  The grid has 8 × 43 points; point `t = (a, b)` reads rows `1024a … 1024a + 1023` of the even and odd feature arrays,
  rows `256b … 256b + 255` of the packed words, scales and biases (each input block spans its array's whole second axis),
  and writes block `(a, b)` of the `[8192, 11008]` output. Entry `(p, q)` of what it writes is the body's payload at
  `(p, q)`, i.e. the flat product at row `1024a + p` and output column `256b + q`: every point writes a block of ONE
  whole-array function. The 344 blocks tile the output (index `(r, o)` lies in the block of point `(r / 1024, o / 256)`),
  so after the region the array holds that function everywhere.
-/
import proofs.«414690_j29867202576384_1_alg».proof.Proof.Gen.KernelIdeal.Frame
import proofs.«414690_j29867202576384_1_alg».proof.Proof.Payload
import Idealize.ShloMosaic.Lib.Pipeline.Value
import Idealize.ShloMosaic.Lib.ValueIdx

set_option maxRecDepth 16384

noncomputable section

open scoped BigOperators

namespace Cert.KernelIdeal.ArrayValue

open Cert.KernelIdeal Cert.KernelIdeal.Gen Idealize.ShloMosaic Idealize.ShloMosaic.TcCoe Idealize.SL.Sem Idealize.ShloMosaic.ValueIdx Cert.QDense
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The flat product -/

/-- Row `r` of the even and odd feature arrays against dequantized output row `o`. -/
def flatAt (xe xo : FVec Ideal S8192x2048 .bf16) (ws : IVec S11008x2048 32) (sc bi : FVec Ideal S11008x32 .f32) (r : Fin 8192) (o : Fin 11008) : EReal :=
  (∑ j : Fin 2048, xe (ix2 r j) * wLow ws sc bi o j) + ∑ j : Fin 2048, xo (ix2 r j) * wHigh ws sc bi o j

/-- The same as an array over `[8192, 11008]`. -/
def flat (xe xo : FVec Ideal S8192x2048 .bf16) (ws : IVec S11008x2048 32) (sc bi : FVec Ideal S11008x32 .f32) : FVec Ideal S8192x11008 .f32 :=
  fun i => flatAt xe xo ws sc bi (i 0) (i 1)

/-- The array at an index is the coordinate form at the index's coordinates. -/
theorem flat_of_coords (xe xo : FVec Ideal S8192x2048 .bf16) (ws : IVec S11008x2048 32) (sc bi : FVec Ideal S11008x32 .f32)
    (r : Fin 8192) (o : Fin 11008) (i : S8192x11008.Idx) (h0 : (i 0).val = r.val) (h1 : (i 1).val = o.val) :
    flatAt xe xo ws sc bi r o = flat xe xo ws sc bi i := by
  have e0 : r = i 0 := Fin.ext h0.symm
  have e1 : o = i 1 := Fin.ext h1.symm
  subst e0 e1
  rfl

/-- The body's payload on blocks that are rows `rowOf p` of the feature arrays and rows `colOf q` of the weight arrays is
    the flat product at `(rowOf p, colOf q)`. -/
theorem block_entry (x0 x1 : Vec Ideal S1024x2048 .bf16) (x2 : Vec Ideal S256x2048 .i32) (x3 x4 : Vec Ideal S256x32 .f32)
    (xe xo : FVec Ideal S8192x2048 .bf16) (ws : IVec S11008x2048 32) (sc bi : FVec Ideal S11008x32 .f32)
    (rowOf : Fin 1024 → Fin 8192) (colOf : Fin 256 → Fin 11008)
    (h0 : ∀ p j, x0 (ix2 p j) = xe (ix2 (rowOf p) j)) (h1 : ∀ p j, x1 (ix2 p j) = xo (ix2 (rowOf p) j))
    (h2 : ∀ q j, x2 (ix2 q j) = ws (ix2 (colOf q) j)) (h3 : ∀ q (g : Fin 32), x3 (ix2 q g) = sc (ix2 (colOf q) g))
    (h4 : ∀ q (g : Fin 32), x4 (ix2 q g) = bi (ix2 (colOf q) g)) (p : Fin 1024) (q : Fin 256) :
    k0_pay1 x2 x3 x4 x0 x1 (ix2 p q) = flatAt xe xo ws sc bi (rowOf p) (colOf q) := by
  rw [BodyValue.payload_apply]
  unfold flatAt wLow wHigh
  simp only [h0, h1, h2, h3, h4]

/-! ## Each input window's block as rows of its array -/

theorem evens_block (c : Dev nD) (t : Fin cfg0.N) (p : Fin 1024) (j : Fin 2048) (r : Fin 8192) (hr : r.val = win0_0.index t 0 * 1024 + p.val)
    (h1 : win0_0.index t 1 = 0) :
    (iblk m c 0 t : Vec Ideal S1024x2048 .bf16) (ix2 p j) = (V m c main_v3 : S8192x2048.Idx → Elt Ideal .bf16) (ix2 r j) := by
  unfold iblk
  rw [View.read_apply]
  show V m c main_v3 _ = V m c main_v3 _
  congr 1
  funext a
  apply Fin.ext
  match a with
  | ⟨0, _⟩ => show win0_0.index t 0 * 1024 + 1 * p.val = r.val; omega
  | ⟨1, _⟩ => show win0_0.index t 1 * 2048 + 1 * j.val = j.val; omega

theorem odds_block (c : Dev nD) (t : Fin cfg0.N) (p : Fin 1024) (j : Fin 2048) (r : Fin 8192) (hr : r.val = win0_1.index t 0 * 1024 + p.val)
    (h1 : win0_1.index t 1 = 0) :
    (iblk m c 1 t : Vec Ideal S1024x2048 .bf16) (ix2 p j) = (V m c main_v5 : S8192x2048.Idx → Elt Ideal .bf16) (ix2 r j) := by
  unfold iblk
  rw [View.read_apply]
  show V m c main_v5 _ = V m c main_v5 _
  congr 1
  funext a
  apply Fin.ext
  match a with
  | ⟨0, _⟩ => show win0_1.index t 0 * 1024 + 1 * p.val = r.val; omega
  | ⟨1, _⟩ => show win0_1.index t 1 * 2048 + 1 * j.val = j.val; omega

theorem words_block (c : Dev nD) (t : Fin cfg0.N) (p : Fin 256) (j : Fin 2048) (r : Fin 11008) (hr : r.val = win0_2.index t 0 * 256 + p.val)
    (h1 : win0_2.index t 1 = 0) :
    (iblk m c 2 t : Vec Ideal S256x2048 .i32) (ix2 p j) = (V m c main_arg1 : S11008x2048.Idx → Elt Ideal .i32) (ix2 r j) := by
  unfold iblk
  rw [View.read_apply]
  show V m c main_arg1 _ = V m c main_arg1 _
  congr 1
  funext a
  apply Fin.ext
  match a with
  | ⟨0, _⟩ => show win0_2.index t 0 * 256 + 1 * p.val = r.val; omega
  | ⟨1, _⟩ => show win0_2.index t 1 * 2048 + 1 * j.val = j.val; omega

theorem scales_block (c : Dev nD) (t : Fin cfg0.N) (p : Fin 256) (j : Fin 32) (r : Fin 11008) (hr : r.val = win0_3.index t 0 * 256 + p.val)
    (h1 : win0_3.index t 1 = 0) :
    (iblk m c 3 t : Vec Ideal S256x32 .f32) (ix2 p j) = (V m c main_arg2 : S11008x32.Idx → Elt Ideal .f32) (ix2 r j) := by
  unfold iblk
  rw [View.read_apply]
  show V m c main_arg2 _ = V m c main_arg2 _
  congr 1
  funext a
  apply Fin.ext
  match a with
  | ⟨0, _⟩ => show win0_3.index t 0 * 256 + 1 * p.val = r.val; omega
  | ⟨1, _⟩ => show win0_3.index t 1 * 32 + 1 * j.val = j.val; omega

theorem biases_block (c : Dev nD) (t : Fin cfg0.N) (p : Fin 256) (j : Fin 32) (r : Fin 11008) (hr : r.val = win0_4.index t 0 * 256 + p.val)
    (h1 : win0_4.index t 1 = 0) :
    (iblk m c 4 t : Vec Ideal S256x32 .f32) (ix2 p j) = (V m c main_arg3 : S11008x32.Idx → Elt Ideal .f32) (ix2 r j) := by
  unfold iblk
  rw [View.read_apply]
  show V m c main_arg3 _ = V m c main_arg3 _
  congr 1
  funext a
  apply Fin.ext
  match a with
  | ⟨0, _⟩ => show win0_4.index t 0 * 256 + 1 * p.val = r.val; omega
  | ⟨1, _⟩ => show win0_4.index t 1 * 32 + 1 * j.val = j.val; omega

/-! ## The index maps over the grid -/

/-- The printed index maps, decided over the 344 points: the output's block index is the point's two grid coordinates, the
    feature windows move with its first, the weight windows with its second, and every input block spans its second axis. -/
theorem idx_facts : ∀ t : Fin cfg0.N,
    win0_5.index t (0 : Fin 2) = t.val / 43 ∧ win0_5.index t (1 : Fin 2) = t.val % 43
    ∧ win0_0.index t (0 : Fin 2) = t.val / 43 ∧ win0_0.index t (1 : Fin 2) = 0
    ∧ win0_1.index t (0 : Fin 2) = t.val / 43 ∧ win0_1.index t (1 : Fin 2) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 2) = t.val % 43 ∧ win0_4.index t (1 : Fin 2) = 0 :=
  (by decide +kernel : ∀ t : Fin grid0.N, _)

theorem point_lt (t : Fin cfg0.N) : t.val < 344 := by
  exact lt_of_lt_of_eq t.isLt N_0

/-! ## What a point writes back -/

/-- Point `t` writes back block `t` of the flat product of the arrays as the region finds them. -/
theorem flushed_eq (c : Dev nD) (t : Fin cfg0.N) :
    (dats m 0 c).flushed 5 t = ((cfg0.win 5).blk t).view.read (Elt Ideal)
      (flat (V m c main_v3) (V m c main_v5) (V m c main_arg1) (V m c main_arg2) (V m c main_arg3)) := by
  obtain ⟨f0, f1, e00, e01, e10, e11, e20, e21, e30, e31, e40, e41⟩ := idx_facts t
  have ht := point_lt t
  show (cfg0.win 5).cut (grid0.coords t) ((dats m 0 c).after 5 t) = _
  rw [after0_5]
  unfold out0_5
  rw [View.canon_unit_zero hz]
  simp only [View.ld_unit_zero (S := S256x2048) hz, View.ld_unit_zero (S := S256x32) hz, View.ld_unit_zero (S := S1024x2048) hz]
  funext y
  obtain ⟨p, q, rfl⟩ : ∃ (p : Fin 1024) (q : Fin 256), y = ix2 p q := ⟨y 0, y 1, eq_ix2 y⟩
  have hp := p.isLt
  have hq := q.isLt
  refine (block_entry (iblk m c 0 t) (iblk m c 1 t) (iblk m c 2 t) (iblk m c 3 t) (iblk m c 4 t)
    (V m c main_v3) (V m c main_v5) (V m c main_arg1) (V m c main_arg2) (V m c main_arg3)
    (fun p => ⟨t.val / 43 * 1024 + p.val, by have := p.isLt; omega⟩) (fun q => ⟨t.val % 43 * 256 + q.val, by have := q.isLt; omega⟩)
    (fun p j => evens_block m c t p j _ (by rw [e00]) e01) (fun p j => odds_block m c t p j _ (by rw [e10]) e11)
    (fun q j => words_block m c t q j _ (by rw [e20]) e21) (fun q g => scales_block m c t q g _ (by rw [e30]) e31)
    (fun q g => biases_block m c t q g _ (by rw [e40]) e41) p q).trans ?_
  exact flat_of_coords (V m c main_v3) (V m c main_v5) (V m c main_arg1) (V m c main_arg2) (V m c main_arg3) _ _
    (((cfg0.win 5).blk t).view.emb (ix2 p q))
    (by show win0_5.index t 0 * 1024 + 1 * p.val = t.val / 43 * 1024 + p.val; rw [f0]; omega)
    (by show win0_5.index t 1 * 256 + 1 * q.val = t.val % 43 * 256 + q.val; rw [f1]; omega)

/-! ## The blocks tile the output -/

/-- An index of the output is in point `t`'s block iff each coordinate is in the block's range on its axis. -/
theorem mem_blk (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v6).slice (win0_5.rect t)).set ↔ _
  rw [View.set_slice_whole, Rect.mem_set_unit]
  exact Iff.rfl

/-- Index `(r, o)` lies in the block of point `(r / 1024, o / 256)`. -/
theorem cover (i : S8192x11008.Idx) : ∃ t : Fin cfg0.N, (cfg0.win 5).flush t = true ∧ i ∈ ((cfg0.win 5).blk t).view.set := by
  have h0 : (i 0).val < 8192 := idx2_lt0 i
  have h1 : (i 1).val < 11008 := idx2_lt1 i
  have hN : cfg0.N = 344 := N_0
  refine ⟨⟨(i 0).val / 1024 * 43 + (i 1).val / 256, by rw [hN]; omega⟩, flush0_5 _, ?_⟩
  obtain ⟨f0, f1, -⟩ := idx_facts ⟨(i 0).val / 1024 * 43 + (i 1).val / 256, by rw [hN]; omega⟩
  rw [mem_blk]
  intro a
  match a with
  | ⟨0, _⟩ =>
    show win0_5.index _ 0 * 1024 ≤ (i 0).val ∧ (i 0).val < win0_5.index _ 0 * 1024 + 1024
    rw [f0]
    show ((i 0).val / 1024 * 43 + (i 1).val / 256) / 43 * 1024 ≤ (i 0).val ∧ (i 0).val < ((i 0).val / 1024 * 43 + (i 1).val / 256) / 43 * 1024 + 1024
    omega
  | ⟨1, _⟩ =>
    show win0_5.index _ 1 * 256 ≤ (i 1).val ∧ (i 1).val < win0_5.index _ 1 * 256 + 256
    rw [f1]
    show ((i 0).val / 1024 * 43 + (i 1).val / 256) % 43 * 256 ≤ (i 1).val ∧ (i 1).val < ((i 0).val / 1024 * 43 + (i 1).val / 256) % 43 * 256 + 256
    omega

/-- After the region the output array holds the flat product of the arrays as the region found them. -/
theorem final (c : Dev nD) :
    (dats m 0 c).arrAt 5 cfg0.N = flat (V m c main_v3) (V m c main_v5) (V m c main_arg1) (V m c main_arg2) (V m c main_arg3) :=
  (dats m 0 c).arrAt_eq_of_cover 5 _ (fun t _ => flushed_eq m c t) cover

end Cert.KernelIdeal.ArrayValue

end
-- ==== Proof.Found.lean ====
/-
  What the region finds in the two arrays the host prepares for it.

  Before the kernel is launched the host flattens `x : [4, 2048, 4096]` to 8192 rows, pairs the features up
  (`[8192, 2048, 2]`: feature `2j + e` of a row sits at `(j, e)`), narrows to bf16 (the identity on the extended reals)
  and slices the pair axis apart. So the array of the kernel's first operand holds, at row `r` and packed column `j`,
  the even feature `x[r / 2048, r % 2048, 2j]`, and the second operand's array the odd feature `x[.., 2j + 1]`.
-/
import proofs.«414690_j29867202576384_1_alg».proof.Proof.Gen.KernelIdeal.Frame
import proofs.«414690_j29867202576384_1_alg».proof.Proof.Spec
import Idealize.ShloMosaic.Lib.Pipeline.Value
import Idealize.ShloMosaic.Lib.ValueIdx
import Idealize.ShloMosaic.Lib.StableHlo.Run

noncomputable section

namespace Cert.KernelIdeal.Found

open Cert.KernelIdeal Cert.KernelIdeal.Gen Idealize.ShloMosaic Idealize.ShloMosaic.TcCoe Idealize.SL.Sem Idealize.ShloMosaic.ValueIdx
open Idealize.ShloMosaic.StableHlo Cert.QDense

variable (m : (ℓ : Loc nD τ sig) → Buf (Elt Ideal) ℓ)

/-- The batch coordinate of flattened row `r`. -/
def rowB (r : Fin 8192) : Fin 4 := ⟨r.val / 2048, by have := r.isLt; omega⟩
/-- The sequence coordinate of flattened row `r`. -/
def rowS (r : Fin 8192) : Fin 2048 := ⟨r.val % 2048, by have := r.isLt; omega⟩

/-- The first operand's array as the host leaves it: the paired-up, narrowed `x`, its pair axis sliced at 0. -/
theorem evens_term (c : Dev nD) :
    @Eq (S8192x2048.Idx → EReal) (V m c main_v3)
      (shapeCast S8192x2048 (extractStridedSlice S8192x2048x1 ![0, 0, 0]
          (truncf (F := Ideal) .bf16 (shapeCast S8192x2048x2 (m ((c : Thread nD τ).loc main_arg0) : S4x2048x4096.Idx → EReal) shapeCasts_S4x2048x4096_S8192x2048x2) bitsLt_bf16_f32)
          slices_S8192x2048x2_S8192x2048x1_0_0_0) shapeCasts_S8192x2048x1_S8192x2048) := by
  show StableHlo.after hostOps0 (fun b => m (c, b)) (Proc.devRef .tc main_v3) = _
  after_results
  rfl

/-- The second operand's array: the same, the pair axis sliced at 1. -/
theorem odds_term (c : Dev nD) :
    @Eq (S8192x2048.Idx → EReal) (V m c main_v5)
      (shapeCast S8192x2048 (extractStridedSlice S8192x2048x1 ![0, 0, 1]
          (truncf (F := Ideal) .bf16 (shapeCast S8192x2048x2 (m ((c : Thread nD τ).loc main_arg0) : S4x2048x4096.Idx → EReal) shapeCasts_S4x2048x4096_S8192x2048x2) bitsLt_bf16_f32)
          slices_S8192x2048x2_S8192x2048x1_0_0_1) shapeCasts_S8192x2048x1_S8192x2048) := by
  show StableHlo.after hostOps0 (fun b => m (c, b)) (Proc.devRef .tc main_v5) = _
  after_results
  rfl

/-- The paired-up `x` at `(r, j, e)` is feature `2j + e` of row `r`. -/
theorem paired_apply (x : FVec Ideal S4x2048x4096 .f32) (r : Fin 8192) (j : Fin 2048) (e : Fin 2) (f : Fin 4096) (hf : f.val = 2 * j.val + e.val) :
    shapeCast S8192x2048x2 x shapeCasts_S4x2048x4096_S8192x2048x2 (ix3 r j e) = x (ix3 (rowB r) (rowS r) f) := by
  have hr := r.isLt
  have hj := j.isLt
  have he := e.isLt
  refine shapeCast_apply x shapeCasts_S4x2048x4096_S8192x2048x2 (ix3 r j e) (ix3 (rowB r) (rowS r) f) ?_
  rewrite [Shape.rowMajor_val_three, Shape.rowMajor_val_three]
  show (r.val / 2048 * 2048 + r.val % 2048) * 4096 + f.val = (r.val * 2048 + j.val) * 2 + e.val
  omega

/-- Row `r`, packed column `j` of the first operand's array is the even feature `2j` of that row of `x`. -/
theorem evens_apply (c : Dev nD) (r : Fin 8192) (j : Fin 2048) :
    (V m c main_v3 : S8192x2048.Idx → EReal) (ix2 r j) = m ((c : Thread nD τ).loc main_arg0) (ix3 (rowB r) (rowS r) (even j)) := by
  have hr := r.isLt
  have hj := j.isLt
  rw [evens_term]
  rw [shapeCast_apply _ shapeCasts_S8192x2048x1_S8192x2048 (ix2 r j) (ix3 r j (0 : Fin 1)) (by
    rewrite [Shape.rowMajor_val_three, Shape.rowMajor_val_two]
    show (r.val * 2048 + j.val) * 1 + 0 = r.val * 2048 + j.val; omega)]
  rw [extractStridedSlice_apply ![0, 0, 0] _ slices_S8192x2048x2_S8192x2048x1_0_0_0 (ix3 r j (0 : Fin 1)) (ix3 r j (0 : Fin 2)) (fun a => by
    match a with
    | ⟨0, _⟩ => show r.val = 0 + r.val; omega
    | ⟨1, _⟩ => show j.val = 0 + j.val; omega
    | ⟨2, _⟩ => show 0 = 0 + 0; omega)]
  rw [truncf_apply]
  exact paired_apply _ r j 0 (even j) (by show 2 * j.val = 2 * j.val + 0; omega)

/-- Row `r`, packed column `j` of the second operand's array is the odd feature `2j + 1` of that row of `x`. -/
theorem odds_apply (c : Dev nD) (r : Fin 8192) (j : Fin 2048) :
    (V m c main_v5 : S8192x2048.Idx → EReal) (ix2 r j) = m ((c : Thread nD τ).loc main_arg0) (ix3 (rowB r) (rowS r) (odd j)) := by
  have hr := r.isLt
  have hj := j.isLt
  rw [odds_term]
  rw [shapeCast_apply _ shapeCasts_S8192x2048x1_S8192x2048 (ix2 r j) (ix3 r j (0 : Fin 1)) (by
    rewrite [Shape.rowMajor_val_three, Shape.rowMajor_val_two]
    show (r.val * 2048 + j.val) * 1 + 0 = r.val * 2048 + j.val; omega)]
  rw [extractStridedSlice_apply ![0, 0, 1] _ slices_S8192x2048x2_S8192x2048x1_0_0_1 (ix3 r j (0 : Fin 1)) (ix3 r j (1 : Fin 2)) (fun a => by
    match a with
    | ⟨0, _⟩ => show r.val = 0 + r.val; omega
    | ⟨1, _⟩ => show j.val = 0 + j.val; omega
    | ⟨2, _⟩ => show 1 = 1 + 0; omega)]
  rw [truncf_apply]
  exact paired_apply _ r j 1 (odd j) (by show 2 * j.val + 1 = 2 * j.val + 1; omega)

end Cert.KernelIdeal.Found

end
-- ==== Proof.KernelRun.lean ====
/-
  The kernel's run, read: after @main the result array holds `QDense.out` of the arguments.

  After the region the `[8192, 11008]` array holds the flat product of the arrays the region found; those are the even and
  odd feature columns of `x` and the three weight arguments themselves, so the flat product at row `r` is `out` at batch
  `r / 2048`, position `r % 2048`. The host's closing reshape to `[4, 2048, 11008]` reads entry `(b, s, o)` at flat row
  `2048 b + s`, which is that batch and position again.
-/
import proofs.«414690_j29867202576384_1_alg».proof.Proof.Blocks
import proofs.«414690_j29867202576384_1_alg».proof.Proof.Found
import Idealize.ShloMosaic.Lib.StableHlo.Run

set_option maxRecDepth 16384

noncomputable section

open scoped BigOperators

namespace Cert.KernelIdeal.ArrayValue

open Cert.KernelIdeal Cert.KernelIdeal.Gen Idealize.ShloMosaic Idealize.ShloMosaic.TcCoe Idealize.SL.Sem Idealize.ShloMosaic.ValueIdx Cert.QDense
open Idealize.ShloMosaic.Pipeline (Dat)
open Idealize.ShloMosaic.StableHlo Cert.KernelIdeal.Found

variable (m : (ℓ : Loc nD τ sig) → Buf (Elt Ideal) ℓ) (ρ : Dev nD → PrngReg)

/-- The flat product of the arrays the region finds, at row `r`, is the layer's output at that row's batch and position. -/
theorem flat_found (c : Dev nD) (r : Fin 8192) (o : Fin 11008) :
    flatAt (V m c main_v3) (V m c main_v5) (V m c main_arg1) (V m c main_arg2) (V m c main_arg3) r o
      = outAt (m ((c : Thread nD τ).loc main_arg0)) (m ((c : Thread nD τ).loc main_arg1)) (m ((c : Thread nD τ).loc main_arg2))
          (m ((c : Thread nD τ).loc main_arg3)) (rowB r) (rowS r) o := by
  unfold flatAt outAt
  simp only [evens_apply m c, odds_apply m c]
  rw [V_main_arg1, V_main_arg2, V_main_arg3]

/-- What the host's closing reshape leaves in the result array: the layer's output. -/
theorem result_value (c : Dev nD) :
    Pipeline.afterTail₀ cfgs (dats m) 0 (V0 m) [hostOps1] c main_v7
      = QDense.out (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v7) = _
  after_results
  have hA := (Pipeline.withArrays_arr spec0 launch0.win.arr_inj c (V0 m c) (fun w => (dats m 0 c).arrAt w cfg0.N) 5).trans (final m c)
  refine (congrArg (fun A : S8192x11008.Idx → EReal => shapeCast S4x2048x11008 A shapeCasts_S8192x11008_S4x2048x11008) hA).trans ?_
  funext i
  obtain ⟨b, s, o, rfl⟩ : ∃ (b : Fin 4) (s : Fin 2048) (o : Fin 11008), i = ix3 b s o := ⟨i 0, i 1, i 2, eq_ix3 i⟩
  have hb := b.isLt
  have hs := s.isLt
  have ho := o.isLt
  rw [shapeCast_apply _ shapeCasts_S8192x11008_S4x2048x11008 (ix3 b s o) (ix2 (⟨b.val * 2048 + s.val, by omega⟩ : Fin 8192) o) (by
    rewrite [Shape.rowMajor_val_two, Shape.rowMajor_val_three]
    show (b.val * 2048 + s.val) * 11008 + o.val = (b.val * 2048 + s.val) * 11008 + o.val; rfl)]
  show flatAt _ _ _ _ _ (⟨b.val * 2048 + s.val, by omega⟩ : Fin 8192) o = outAt _ _ _ _ b s o
  rw [flat_found]
  have eb : rowB (⟨b.val * 2048 + s.val, by omega⟩ : Fin 8192) = b := Fin.ext (by show (b.val * 2048 + s.val) / 2048 = b.val; omega)
  have es : rowS (⟨b.val * 2048 + s.val, by omega⟩ : Fin 8192) = s := Fin.ext (by show (b.val * 2048 + s.val) % 2048 = s.val; omega)
  rw [eb, es]

/-- THE KERNEL'S RUN at the extended reals: every weakly fair execution terminates, the result array holds the layer's
    output of the arguments as launched, and the arguments are unchanged. -/
theorem run : θ_run defs (onTc (τ := τ) (main (F := Ideal))) ⟨m, fun _ => 0, ρ⟩ (fun r => ∀ c : Dev nD,
      r.2.mem ((c.tc : Thread nD τ).loc main_v7)
        = QDense.out (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v7 (Pipeline.mem_restRefs_of main_v7 (by decide) (by decide))).trans (result_value m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩)
    (run_main m ρ)

end Cert.KernelIdeal.ArrayValue

end
-- ==== Proof.RefBridge.lean ====
/-
  The reference computes `QDense.out`.

  The reference interleaves the two nibble arrays (`stack(..., axis=-1).reshape(O, I)`: feature `i` of row `o` is the
  low nibble of packed column `i / 2` when `i` is even and the shifted word when `i` is odd), repeats each group's scale
  and bias 128 times along the feature axis (feature `i` lies in group `i / 128`), dequantizes, and contracts the 4096
  features of `x[b, s, ·]` against row `o`. Read at the even feature `2j` the dequantized row is `wLow o j`, at the odd
  feature `2j + 1` it is `wHigh o j` (the group of both is `(2j) / 128 = (2j + 1) / 128 = j / 64`); the contraction then
  splits into its even and odd terms.
-/
import proofs.«414690_j29867202576384_1_alg».proof.Proof.Gen.ReferenceIdeal.Read
import proofs.«414690_j29867202576384_1_alg».proof.Proof.Spec
import Idealize.ShloMosaic.Lib.KernelVsHost
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.QDense

variable (x1 : IVec S11008x2048 32) (x2 x3 : FVec Ideal S11008x32 .f32)

/-- The interleaved nibble array at an even feature: the low nibble of the packed column. -/
theorem nibbles_even (o : Fin 11008) (j : Fin 2048) :
    val_main_v9 (F := Ideal) x1 (ix2 o (even j)) = FloatOps.sitofp (F := Ideal) .f32 (IntOp.andi (x1 (ix2 o j)) 15#32) := by
  have hj := j.isLt
  have ho := o.isLt
  rw [val_main_v9_apply]
  unfold val_main_v8
  refine (concatenate_pair_apply_left (2 : Fin 3) (val_main_v6 (F := Ideal) x1) (val_main_v7 (F := Ideal) x1)
    concatenates_S11008x2048x1_S11008x2048x1_S11008x2048x2_d2 (idx_main_v9 (ix2 o (even j))) rfl (ix3 o j (0 : Fin 1)) (fun b => by
    match b with
    | ⟨0, _⟩ => show o.val = (o.val * 4096 + 2 * j.val) / 4096; omega
    | ⟨1, _⟩ => show j.val = (o.val * 4096 + 2 * j.val) / 2 % 2048; omega
    | ⟨2, _⟩ => show 0 = (o.val * 4096 + 2 * j.val) % 2; omega)).trans ?_
  rw [val_main_v6_apply]
  have e : idx_main_v6 (ix3 o j (0 : Fin 1)) = ix2 o j := funext fun a => by
    match a with
    | ⟨0, _⟩ => rfl
    | ⟨1, _⟩ => rfl
  rw [e]
  rfl

/-- The interleaved nibble array at an odd feature: the packed word shifted right by four bits (the host's arithmetic
    shift and the vector unit's are one function on 32-bit words). -/
theorem nibbles_odd (o : Fin 11008) (j : Fin 2048) :
    val_main_v9 (F := Ideal) x1 (ix2 o (odd j)) = FloatOps.sitofp (F := Ideal) .f32 (IntOp.shrsi .vector (x1 (ix2 o j)) 4#32) := by
  have hj := j.isLt
  have ho := o.isLt
  rw [val_main_v9_apply]
  unfold val_main_v8
  refine (concatenate_pair_apply_right (2 : Fin 3) (val_main_v6 (F := Ideal) x1) (val_main_v7 (F := Ideal) x1)
    concatenates_S11008x2048x1_S11008x2048x1_S11008x2048x2_d2 (idx_main_v9 (ix2 o (odd j))) rfl rfl (ix3 o j (0 : Fin 1)) (fun b hb => by
    match b with
    | ⟨0, _⟩ => show o.val = (o.val * 4096 + (2 * j.val + 1)) / 4096; omega
    | ⟨1, _⟩ => show j.val = (o.val * 4096 + (2 * j.val + 1)) / 2 % 2048; omega
    | ⟨2, _⟩ => exact absurd rfl hb) (by show 0 + 1 = (o.val * 4096 + (2 * j.val + 1)) % 2; omega)).trans ?_
  rw [val_main_v7_apply]
  have e : idx_main_v7 (ix3 o j (0 : Fin 1)) = ix2 o j := funext fun a => by
    match a with
    | ⟨0, _⟩ => rfl
    | ⟨1, _⟩ => rfl
  rw [e]
  show FloatOps.sitofp (F := Ideal) .f32 (IntOp.shrsi .host (x1 (ix2 o j)) 4#32) = _
  rw [shrsi_unit .host .vector]

/-- A group's value repeated 128 times along the feature axis, read at feature `i`: the value of group `i / 128`. -/
theorem repeated_scale (o : Fin 11008) (i : Fin 4096) (g : Fin 32) (hg : g.val = i.val / 128) :
    val_main_v11 (F := Ideal) x2 (ix2 o i) = x2 (ix2 o g) := by
  have hi := i.isLt
  have ho := o.isLt
  rw [val_main_v11_apply, val_main_v10_apply]
  refine congrArg x2 (funext fun a => Fin.ext ?_)
  match a with
  | ⟨0, _⟩ => show (o.val * 4096 + i.val) / 4096 = o.val; omega
  | ⟨1, _⟩ => show (o.val * 4096 + i.val) / 128 % 32 = g.val; omega

theorem repeated_bias (o : Fin 11008) (i : Fin 4096) (g : Fin 32) (hg : g.val = i.val / 128) :
    val_main_v13 (F := Ideal) x3 (ix2 o i) = x3 (ix2 o g) := by
  have hi := i.isLt
  have ho := o.isLt
  rw [val_main_v13_apply, val_main_v12_apply]
  refine congrArg x3 (funext fun a => Fin.ext ?_)
  match a with
  | ⟨0, _⟩ => show (o.val * 4096 + i.val) / 4096 = o.val; omega
  | ⟨1, _⟩ => show (o.val * 4096 + i.val) / 128 % 32 = g.val; omega

/-- The dequantized row at an even feature. -/
theorem dequant_even (o : Fin 11008) (j : Fin 2048) :
    val_main_v15 (F := Ideal) x1 x2 x3 (ix2 o (even j)) = wLow x1 x2 x3 o j := by
  have hj := j.isLt
  rw [val_main_v15_apply, val_main_v14_apply, nibbles_even, repeated_scale x2 o (even j) (grp j) (by show j.val / 64 = 2 * j.val / 128; omega),
    repeated_bias x3 o (even j) (grp j) (by show j.val / 64 = 2 * j.val / 128; omega)]
  rfl

/-- The dequantized row at an odd feature. -/
theorem dequant_odd (o : Fin 11008) (j : Fin 2048) :
    val_main_v15 (F := Ideal) x1 x2 x3 (ix2 o (odd j)) = wHigh x1 x2 x3 o j := by
  have hj := j.isLt
  rw [val_main_v15_apply, val_main_v14_apply, nibbles_odd, repeated_scale x2 o (odd j) (grp j) (by show j.val / 64 = (2 * j.val + 1) / 128; omega),
    repeated_bias x3 o (odd j) (grp j) (by show j.val / 64 = (2 * j.val + 1) / 128; omega)]
  rfl

/-- The reference's result is `QDense.out` of its arguments: the contraction over 4096 features, split by parity. -/
theorem result_eq (x0 : FVec Ideal S4x2048x4096 .f32) :
    val_main_v16 (F := Ideal) x0 x1 x2 x3 = QDense.out x0 x1 x2 x3 := by
  funext i
  obtain ⟨b, s, o, rfl⟩ : ∃ (b : Fin 4) (s : Fin 2048) (o : Fin 11008), i = ix3 b s o := ⟨i 0, i 1, i 2, eq_ix3 i⟩
  rw [val_main_v16_apply, sum_even_odd]
  show _ = QDense.outAt x0 x1 x2 x3 b s o
  unfold QDense.outAt
  have el : ∀ k : Fin 4096, lidx_main_v16 (ix3 b s o) k = ix3 b s k := fun k => funext fun a => by
    match a with
    | ⟨0, _⟩ => rfl
    | ⟨1, _⟩ => rfl
    | ⟨2, _⟩ => rfl
  have er : ∀ k : Fin 4096, ridx_main_v16 (ix3 b s o) k = ix2 o k := fun k => funext fun a => by
    match a with
    | ⟨0, _⟩ => rfl
    | ⟨1, _⟩ => rfl
  congr 1 <;> refine Finset.sum_congr rfl fun j _ => ?_
  · rw [el, er, dequant_even]
  · rw [el, er, dequant_odd]

end Cert.ReferenceIdeal.RefValue

end
-- ==== Proof.lean ====
/-
  A quantized dense layer against its reference, over the extended reals.

  The weights of the layer are stored as 4-bit values, two to a 32-bit word: the low nibble of `ws[o, j]` is the weight of
  feature `2j` of output row `o`, the word shifted right by four its weight of feature `2j + 1`. Every 128 consecutive
  features of a row share a scale and a bias, and the dequantized weight is `q · scale + bias`.

  The reference interleaves the two nibble arrays into a `[11008, 4096]` weight matrix, repeats scales and biases along
  the features, and contracts all 4096 features of `x[b, s, ·]` against row `o`. The kernel never interleaves: the host
  splits `x` into its even and its odd feature columns, and each grid point multiplies a block of even columns with the
  dequantized low nibbles and a block of odd columns with the dequantized high parts, adding the two products.
  Both are `QDense.out` (Proof/Spec.lean): the sum over 4096 features is the sum of its even terms plus the sum of its odd
  terms, a regrouping of a finite sum that holds on the extended reals without any finiteness, so the precondition is not
  used; narrowing to bf16 is the identity there, and the host's arithmetic shift is the vector unit's on 32-bit words.

  The modules: Spec (the function and the parity split), RefBridge (the reference's result is `out`), Payload (the body's
  arithmetic at an entry), Found (the even and odd columns the host prepares), Blocks (every grid point writes a block of
  one whole-array function, and the blocks tile the output), KernelRun (the kernel's run with its result named).
-/
import proofs.«414690_j29867202576384_1_alg».proof.Defs
import proofs.«414690_j29867202576384_1_alg».proof.Proof.Gen.Kernel
import proofs.«414690_j29867202576384_1_alg».proof.Proof.Gen.Kernel.Skeleton
import proofs.«414690_j29867202576384_1_alg».proof.Proof.Gen.Kernel.Launch
import proofs.«414690_j29867202576384_1_alg».proof.Proof.Gen.Kernel.Points
import proofs.«414690_j29867202576384_1_alg».proof.Proof.Gen.Kernel.Frame
import proofs.«414690_j29867202576384_1_alg».proof.Proof.Gen.KernelIdeal
import proofs.«414690_j29867202576384_1_alg».proof.Proof.Gen.KernelIdeal.Skeleton
import proofs.«414690_j29867202576384_1_alg».proof.Proof.Gen.KernelIdeal.Launch
import proofs.«414690_j29867202576384_1_alg».proof.Proof.Gen.KernelIdeal.Points
import proofs.«414690_j29867202576384_1_alg».proof.Proof.Gen.KernelIdeal.Frame
import proofs.«414690_j29867202576384_1_alg».proof.Proof.Gen.ReferenceIdeal
import proofs.«414690_j29867202576384_1_alg».proof.Proof.Gen.ReferenceIdeal.Run
import proofs.«414690_j29867202576384_1_alg».proof.Proof.Gen.ReferenceIdeal.Read
import proofs.«414690_j29867202576384_1_alg».proof.Proof.Gen.Pre_finite_inputs
import proofs.«414690_j29867202576384_1_alg».proof.Proof.KernelRun
import proofs.«414690_j29867202576384_1_alg».proof.Proof.RefBridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with `QDense.out` of those arguments in their result
    arrays: the kernel by its blocks (KernelRun), the reference by the parity split of its contraction (RefBridge). -/
theorem algebraic : Cert.algebraic_KernelIdeal_ReferenceIdeal := by
  intro m ρ m' ρ' _ hagree
  refine ⟨fun c => Cert.QDense.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
